-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : FVec F S512x128 .f32) (main_arg2 : FVec F S128 .f32) (main_arg3 : FVec F S128x512 .f32) (main_arg4 : FVec F S512 .f32) (main_arg5 : FVec F S128 .f32) (main_arg6 : IVec S2x640000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S1x128 : Shape := ⟨2, ![1, 128]⟩
abbrev S50000x128 : Shape := ⟨2, ![50000, 128]⟩
abbrev S2000x512 : Shape := ⟨2, ![2000, 512]⟩
abbrev S2000x128 : Shape := ⟨2, ![2000, 128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x512 : Shape := ⟨2, ![1, 512]⟩

abbrev nBuf : Space → Nat
  | .hbm => 69
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S128, .f32⟩
  | .hbm, ⟨6, _⟩ => ⟨S2x640000, .i32⟩
  | .hbm, ⟨7, _⟩ => ⟨S1x128, .f32⟩
  | .hbm, ⟨8, _⟩ => ⟨S50000x128, .f32⟩
  | .hbm, ⟨9, _⟩ => ⟨S50000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S1x640000, .i32⟩
  | .hbm, ⟨14, _⟩ => ⟨S640000, .i32⟩
  | .hbm, ⟨15, _⟩ => ⟨S690000, .i32⟩
  | .hbm, ⟨16, _⟩ => ⟨S_, .f32⟩
  | .hbm, ⟨17, _⟩ => ⟨S690000, .f32⟩
  | .hbm, ⟨18, _⟩ => ⟨S_, .f32⟩
  | .hbm, ⟨19, _⟩ => ⟨S50000, .f32⟩
  | .hbm, ⟨20, _⟩ => ⟨S690000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S_, .i32⟩
  | .hbm, ⟨39, _⟩ => ⟨S690000, .i32⟩
  | .hbm, ⟨40, _⟩ => ⟨S690000, .i1⟩
  | .hbm, ⟨41, _⟩ => ⟨S_, .i32⟩
  | .hbm, ⟨42, _⟩ => ⟨S690000, .i32⟩
  | .hbm, ⟨43, _⟩ => ⟨S690000, .i32⟩
  | .hbm, ⟨44, _⟩ => ⟨S690000, .i32⟩
  | .hbm, ⟨45, _⟩ => ⟨S690000x1, .i32⟩
  | .hbm, ⟨46, _⟩ => ⟨S690000, .f32⟩
  | .hbm, ⟨47, _⟩ => ⟨S690000, .f32⟩
  | .hbm, ⟨48, _⟩ => ⟨S690000x1, .f32⟩
  | .hbm, ⟨49, _⟩ => ⟨S_, .i32⟩
  | .hbm, ⟨50, _⟩ => ⟨S690000, .i32⟩
  | .hbm, ⟨51, _⟩ => ⟨S690000, .i1⟩
  | .hbm, ⟨52, _⟩ => ⟨S_, .i32⟩
  | .hbm, ⟨53, _⟩ => ⟨S690000, .i32⟩
  | .hbm, ⟨54, _⟩ => ⟨S690000, .i32⟩
  | .hbm, ⟨55, _⟩ => ⟨S690000, .i32⟩
  | .hbm, ⟨56, _⟩ => ⟨S690000x1, .i32⟩
  | .hbm, ⟨57, _⟩ => ⟨S690000x128, .f32⟩
  | .hbm, ⟨58, _⟩ => ⟨S690000x128, .f32⟩
  | .hbm, ⟨59, _⟩ => ⟨S690000x128, .f32⟩
  | .hbm, ⟨60, _⟩ => ⟨S_, .f32⟩
  | .hbm, ⟨61, _⟩ => ⟨S50000x128, .f32⟩
  | .hbm, ⟨62, _⟩ => ⟨S690000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x512, .f32⟩
  | .hbm, ⟨68, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S2000x512_S512x128_S2000x128_1_0_0_1_n_n_wf : DotDims.WF S2000x512 S512x128 S2000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S690000x1 : Shape := ⟨2, ![690000, 1]⟩
abbrev S690000x128 : Shape := ⟨2, ![690000, 128]⟩
abbrev S1x512 : Shape := ⟨2, ![1, 512]⟩

abbrev nBuf : Space → Nat
  | .hbm => 84
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S128, .f32⟩
  | .hbm, ⟨6, _⟩ => ⟨S2x640000, .i32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S50000, .i32⟩
  | .hbm, ⟨15, _⟩ => ⟨S1x640000, .i32⟩
  | .hbm, ⟨16, _⟩ => ⟨S640000, .i32⟩
  | .hbm, ⟨17, _⟩ => ⟨S690000, .i32⟩
  | .hbm, ⟨18, _⟩ => ⟨S1x640000, .i32⟩
  | .hbm, ⟨19, _⟩ => ⟨S640000, .i32⟩
  | .hbm, ⟨20, _⟩ => ⟨S690000, .i32⟩
  | .hbm, ⟨21, _⟩ => ⟨S_, .f32⟩
  | .hbm, ⟨22, _⟩ => ⟨S690000, .f32⟩
  | .hbm, ⟨23, _⟩ => ⟨S_, .f32⟩
  | .hbm, ⟨24, _⟩ => ⟨S50000, .f32⟩
  | .hbm, ⟨25, _⟩ => ⟨S690000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S690000, .i32⟩
  | .hbm, ⟨36, _⟩ => ⟨S690000, .i1⟩
  | .hbm, ⟨37, _⟩ => ⟨S_, .i32⟩
  | .hbm, ⟨38, _⟩ => ⟨S690000, .i32⟩
  | .hbm, ⟨39, _⟩ => ⟨S690000, .i32⟩
  | .hbm, ⟨40, _⟩ => ⟨S690000, .i32⟩
  | .hbm, ⟨41, _⟩ => ⟨S690000x1, .i32⟩
  | .hbm, ⟨42, _⟩ => ⟨S690000, .f32⟩
  | .hbm, ⟨43, _⟩ => ⟨S_, .i32⟩
  | .hbm, ⟨44, _⟩ => ⟨S690000, .i32⟩
  | .hbm, ⟨45, _⟩ => ⟨S690000, .i1⟩
  | .hbm, ⟨46, _⟩ => ⟨S_, .i32⟩
  | .hbm, ⟨47, _⟩ => ⟨S690000, .i32⟩
  | .hbm, ⟨48, _⟩ => ⟨S690000, .i32⟩
  | .hbm, ⟨49, _⟩ => ⟨S690000, .i32⟩
  | .hbm, ⟨50, _⟩ => ⟨S690000x1, .i32⟩
  | .hbm, ⟨51, _⟩ => ⟨S690000, .f32⟩
  | .hbm, ⟨52, _⟩ => ⟨S690000, .f32⟩
  | .hbm, ⟨53, _⟩ => ⟨S690000x1, .f32⟩
  | .hbm, ⟨54, _⟩ => ⟨S_, .i32⟩
  | .hbm, ⟨55, _⟩ => ⟨S690000, .i32⟩
  | .hbm, ⟨56, _⟩ => ⟨S690000, .i1⟩
  | .hbm, ⟨57, _⟩ => ⟨S_, .i32⟩
  | .hbm, ⟨58, _⟩ => ⟨S690000, .i32⟩
  | .hbm, ⟨59, _⟩ => ⟨S690000, .i32⟩
  | .hbm, ⟨60, _⟩ => ⟨S690000, .i32⟩
  | .hbm, ⟨61, _⟩ => ⟨S690000x1, .i32⟩
  | .hbm, ⟨62, _⟩ => ⟨S690000x128, .f32⟩
  | .hbm, ⟨63, _⟩ => ⟨S690000x128, .f32⟩
  | .hbm, ⟨64, _⟩ => ⟨S690000x128, .f32⟩
  | .hbm, ⟨65, _⟩ => ⟨S_, .f32⟩
  | .hbm, ⟨66, _⟩ => ⟨S50000x128, .f32⟩
  | .hbm, ⟨67, _⟩ => ⟨S690000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x512, .f32⟩
  | .hbm, ⟨73, _⟩ => ⟨S1x512, .f32⟩
  | .hbm, ⟨74, _⟩ => ⟨S50000x512, .f32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S_, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x512_S512x128_S50000x128_1_0_0_1_n_n_wf : DotDims.WF S50000x512 S512x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x512_S50000x512_1_0_0_1_n_n_wf : DotDims.WF S50000x128 S128x512 S50000x512 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.Spec.lean ====
/-
  The function both programs compute, index by index, over the extended reals.

  A dense encoder, a graph convolution, a dense decoder:
    encoded  = max (x · W_enc + b_enc, 0)                     rows of x against columns of W_enc, a bias per column
    messaged = the degree-normalised neighbourhood sum of `encoded` over the edge list with self loops, plus a bias
    decoded  = 1 / (1 + e^(-(messaged · W_dec + b_dec)))
  The two dense layers are stated here element by element (`enc`, `dec`): entry (r, q) is a sum over the
  contracted axis of products, plus the bias of column q, through the layer's nonlinearity. The graph
  convolution (`gcn`) is a chain of gathers and scatter-adds whose indices are DATA (the edge list); both programs
  apply the same chain, so it is carried as one function of the encoded array, the edge list and the bias and is
  never opened.
-/
import proofs.«174198_j36464272343198_1_alg».proof.KernelIdeal
import proofs.«174198_j36464272343198_1_alg».proof.Proof.Gen.KernelIdeal
import Idealize.ShloMosaic.PureOps.Ideal
import Idealize.ShloMosaic.Lib.ValueIdx

noncomputable section

namespace Cert.Spec

open Idealize.ShloMosaic Idealize.ShloMosaic.ValueIdx Cert.KernelIdeal Cert.KernelIdeal.Facts₀

/-- Entry (r, q) of the encoder layer: the r-th row of `x` against the q-th column of `W`, plus the q-th bias
    (the bias as a one-row array), clamped below at zero. -/
def enc (x : S50000x512.Idx → EReal) (W : S512x128.Idx → EReal) (b : S1x128.Idx → EReal) : S50000x128.Idx → EReal :=
  fun i => FloatOps.maximumf (F := Ideal) (φ := .f32)
    (FloatOps.addf (F := Ideal) (φ := .f32) (∑ k : Fin 512, x (ix2 (i 0) k) * W (ix2 k (i 1))) (b (ix2 0 (i 1))))
    (FloatOps.ofBits (F := Ideal) .f32 0x00000000#32)

/-- Entry (r, q) of the decoder layer: the r-th row of `h` against the q-th column of `W`, plus the q-th bias
    (the bias as a one-row array), through the logistic function. -/
def dec (h : S50000x128.Idx → EReal) (W : S128x512.Idx → EReal) (b : S1x512.Idx → EReal) : S50000x512.Idx → EReal :=
  fun i => FloatOps.logistic (F := Ideal) (φ := .f32)
    (FloatOps.addf (F := Ideal) (φ := .f32) (∑ k : Fin 128, h (ix2 (i 0) k) * W (ix2 k (i 1))) (b (ix2 0 (i 1))))

variable {F : FTy → Type} [FloatOps F]

/-- The graph convolution as the host computes it: source and target lists are the edge list's two rows, each
    followed by 0 … 49999 (a self loop per node); a node's degree is the scatter-add of ones over the targets, its
    weight the reciprocal square root of a positive degree and zero otherwise; every edge carries its source's row of
    `h` scaled by the two endpoint weights; the rows are scatter-added over the targets; the bias is added to every row. -/
def gcn (h : (⟨S50000x128, .f32⟩ : BufTy).Contents (Elt F)) (ei : (⟨S2x640000, .i32⟩ : BufTy).Contents (Elt F))
    (gb : (⟨S128, .f32⟩ : BufTy).Contents (Elt F)) : (⟨S50000x128, .f32⟩ : BufTy).Contents (Elt F) :=
  addf (Host.scatterAdd scatter_S50000x128_S690000x1_S690000x128_1_0_0_1 (broadcastInDim S50000x128 ![] bcast_S_S50000x128 (constant S_ .f32 0x00000000#32)) (broadcastInDim S690000x1 ![0] bcast_S690000_S690000x1_0 (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0)) (mulf (broadcastInDim S690000x128 ![0, 1] bcast_S690000x1_S690000x128_0_1 (broadcastInDim S690000x1 ![0] bcast_S690000_S690000x1_0 (mulf (Host.gather gather_S50000_S690000x1_S690000_n_0_n_n_0_1_1 (select (cmpf (F := F) .ogt (Host.scatterAdd scatter_S50000_S690000x1_S690000_n_0_0_1 (broadcastInDim S50000 ![] bcast_S_S50000 (constant S_ .f32 0x00000000#32)) (broadcastInDim S690000x1 ![0] bcast_S690000_S690000x1_0 (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0)) (broadcastInDim S690000 ![] bcast_S_S690000 (constant S_ .f32 0x3F800000#32))) (broadcastInDim S50000 ![] bcast_S_S50000 (constant S_ .f32 0x00000000#32))) (Host.rsqrt (Host.scatterAdd scatter_S50000_S690000x1_S690000_n_0_0_1 (broadcastInDim S50000 ![] bcast_S_S50000 (constant S_ .f32 0x00000000#32)) (broadcastInDim S690000x1 ![0] bcast_S690000_S690000x1_0 (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0)) (broadcastInDim S690000 ![] bcast_S_S690000 (constant S_ .f32 0x3F800000#32)))) (broadcastInDim S50000 ![] bcast_S_S50000 (constant S_ .f32 0x00000000#32))) (broadcastInDim S690000x1 ![0] bcast_S690000_S690000x1_0 (select (cmpi .slt (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0) (broadcastInDim S690000 ![] bcast_S_S690000 (constantI S_ 32 0#32))) (addi (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0) (broadcastInDim S690000 ![] bcast_S_S690000 (constantI S_ 32 50000#32))) (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0)))) (Host.gather gather_S50000_S690000x1_S690000_n_0_n_n_0_1_1 (select (cmpf (F := F) .ogt (Host.scatterAdd scatter_S50000_S690000x1_S690000_n_0_0_1 (broadcastInDim S50000 ![] bcast_S_S50000 (constant S_ .f32 0x00000000#32)) (broadcastInDim S690000x1 ![0] bcast_S690000_S690000x1_0 (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0)) (broadcastInDim S690000 ![] bcast_S_S690000 (constant S_ .f32 0x3F800000#32))) (broadcastInDim S50000 ![] bcast_S_S50000 (constant S_ .f32 0x00000000#32))) (Host.rsqrt (Host.scatterAdd scatter_S50000_S690000x1_S690000_n_0_0_1 (broadcastInDim S50000 ![] bcast_S_S50000 (constant S_ .f32 0x00000000#32)) (broadcastInDim S690000x1 ![0] bcast_S690000_S690000x1_0 (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0)) (broadcastInDim S690000 ![] bcast_S_S690000 (constant S_ .f32 0x3F800000#32)))) (broadcastInDim S50000 ![] bcast_S_S50000 (constant S_ .f32 0x00000000#32))) (broadcastInDim S690000x1 ![0] bcast_S690000_S690000x1_0 (select (cmpi .slt (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0) (broadcastInDim S690000 ![] bcast_S_S690000 (constantI S_ 32 0#32))) (addi (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0) (broadcastInDim S690000 ![] bcast_S_S690000 (constantI S_ 32 50000#32))) (concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0))))))) (Host.gather gather_S50000x128_S690000x1_S690000x128_1_0_n_n_0_1_1128 h (broadcastInDim S690000x1 ![0] bcast_S690000_S690000x1_0 (select (cmpi .slt (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0) (broadcastInDim S690000 ![] bcast_S_S690000 (constantI S_ 32 0#32))) (addi (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0) (broadcastInDim S690000 ![] bcast_S_S690000 (constantI S_ 32 50000#32))) (concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0)))))) (broadcastInDim S50000x128 ![0, 1] bcast_S1x128_S50000x128_0_1 (broadcastInDim S1x128 ![1] bcast_S128_S1x128_1 gb))

end Cert.Spec

end
-- ==== Proof.Region0.lean ====
/-
  The encoder region's value: after the pipeline has run over its 25 row blocks, the output array holds the
  encoder layer of the arrays the region was entered with.

  Grid point t stages rows 2000·t … 2000·t + 1999 of the input (all 512 columns), the whole weight matrix and the
  one-row bias; the body multiplies the row block by the weights on the matrix unit into a zero accumulator, adds
  the bias row to every row and clamps at zero; the result is written back to rows 2000·t … of the output. At the
  ideal instance the change of format before the product is the identity and the product is the plain sum over
  the contracted axis, so entry (2000·t + p, q) of the output is `Spec.enc` of the arrays at that entry. The 25 row
  blocks tile the 50000 rows, so the whole array is `Spec.enc`.
-/
import proofs.«174198_j36464272343198_1_alg».proof.Proof.Gen.KernelIdeal.Frame
import proofs.«174198_j36464272343198_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EncValue

open Idealize.ShloMosaic Idealize.ShloMosaic.TcCoe Idealize.SL.Sem Idealize.ShloMosaic.ValueIdx
open Idealize.ShloMosaic.Pipeline (Dat)
open Cert.KernelIdeal Cert.KernelIdeal.Gen

/-! ## The matrix product of a staged block at an entry -/

theorem lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The matrix unit's product into a zero accumulator, at entry `j`: row `j 0` of the left block against column
    `j 1` of the right one. -/
theorem product_apply (a : FVec Ideal S2000x512 .bf16) (b : FVec Ideal S512x128 .bf16) (j : S2000x128.Idx) :
    FloatOps.matmul dot_S2000x512_S512x128_S2000x128_1_0_0_1_n_n none a b (constant S2000x128 .f32 0x00000000#32) j
      = ∑ k : Fin 512, a (ix2 (j 0) k) * b (ix2 k (j 1)) := by
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx j ((contrEquiv1 dot_S2000x512_S512x128_S2000x128_1_0_0_1_n_n 512 rfl rfl).symm k) = ix2 (j 0) k := funext fun a => Fin.ext (by
    match a with
    | ⟨0, _⟩ => exact lhs_0 _ _
    | ⟨1, _⟩ => exact (lhs_1 _ _).trans hk)
  have er : dot_S2000x512_S512x128_S2000x128_1_0_0_1_n_n.rhsIdx j ((contrEquiv1 dot_S2000x512_S512x128_S2000x128_1_0_0_1_n_n 512 rfl rfl).symm k) = ix2 k (j 1) := funext fun a => Fin.ext (by
    match a with
    | ⟨0, _⟩ => exact (rhs_0 _ _).trans hk
    | ⟨1, _⟩ => exact rhs_1 _ _)
  rw [el, er]
  rfl

/-- The bias row spread over the block's rows, at entry `j`: the bias of column `j 1`. -/
theorem bias_apply (x2 : FVec Ideal S1x128 .f32) (j : S2000x128.Idx) :
    broadcastTo S2000x128 (shapeCast S1x128 x2 shapeCasts_S1x128_S1x128) broadcasts_S1x128_S2000x128 j = x2 (ix2 0 (j 1)) := by
  rw [shapeCast_self]
  exact broadcastTo_apply x2 broadcasts_S1x128_S2000x128 j (ix2 0 (j 1)) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])

/-- The body's stored value at entry `j` of the block, from the three staged blocks. -/
theorem payload_apply (x0 : Vec Ideal S2000x512 .f32) (x1 : Vec Ideal S512x128 .f32) (x2 : Vec Ideal S1x128 .f32) (j : S2000x128.Idx) :
    k0_pay1 x0 x1 x2 j
      = FloatOps.maximumf (F := Ideal) (φ := .f32)
          (FloatOps.addf (F := Ideal) (φ := .f32) (∑ k : Fin 512, x0 (ix2 (j 0) k) * x1 (ix2 k (j 1))) (x2 (ix2 0 (j 1))))
          (FloatOps.ofBits (F := Ideal) .f32 0x00000000#32) := by
  unfold k0_pay1
  show FloatOps.maximumf (F := Ideal) (φ := .f32) (FloatOps.addf (F := Ideal) (φ := .f32) (FloatOps.matmul (F := Ideal) dot_S2000x512_S512x128_S2000x128_1_0_0_1_n_n none (truncf .bf16 (x0 : FVec Ideal S2000x512 .f32) bitsLt_bf16_f32) (truncf .bf16 (x1 : FVec Ideal S512x128 .f32) bitsLt_bf16_f32) (constant S2000x128 .f32 0x00000000#32) j) (broadcastTo S2000x128 (shapeCast S1x128 (x2 : FVec Ideal S1x128 .f32) shapeCasts_S1x128_S1x128) broadcasts_S1x128_S2000x128 j)) (FloatOps.ofBits (F := Ideal) .f32 0x00000000#32) = _
  rw [product_apply, bias_apply]
  rfl

/-! ## The staged blocks as rows of the arrays, the write-back, the cover -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input rows and the output rows move with the point, the weights and the
    bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows 2000·t … of the input array. -/
theorem block_x (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c main_arg0 : S50000x512.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- The weight block at every point is the whole weight array. -/
theorem block_w (c : Dev nD) (t : Fin cfg0.N) (y : S512x128.Idx) :
    (iblk0 V c 1 t : Vec Ideal S512x128 .f32) y = (V c main_arg1 : S512x128.Idx → Elt Ideal .f32) y := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 512 + 1 * (y 0).val = (y 0).val; rw [e0]; omega
  | ⟨1, _⟩ => show win0_1.index t 1 * 128 + 1 * (y 1).val = (y 1).val; rw [e1]; omega

/-- The bias block at every point is the whole one-row bias array. -/
theorem block_b (c : Dev nD) (t : Fin cfg0.N) (y : S1x128.Idx) :
    (iblk0 V c 2 t : Vec Ideal S1x128 .f32) y = (V c main_v0 : S1x128.Idx → Elt Ideal .f32) y := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- What point `t` writes back is block `t` of the encoder layer of the arrays the region was entered with. -/
theorem flushed_eq (c : Dev nD) (t : Fin cfg0.N) :
    (dat0 V c).flushed 3 t
      = ((cfg0.win 3).blk t).view.read (Elt Ideal) (Spec.enc (V c main_arg0) (V c main_arg1) (V c main_v0)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz, View.ld_unit_zero (S := S1x128) hz]
  funext j
  obtain ⟨-, -, -, -, -, -, e0, e1⟩ := idx_facts t
  rw [View.read_apply]
  show k0_pay1 (iblk0 V c 0 t) (iblk0 V c 1 t) (iblk0 V c 2 t) j = Spec.enc _ _ _ (((cfg0.win 3).blk t).view.emb j)
  refine (payload_apply _ _ _ j).trans ?_
  have hE0 : ((((cfg0.win 3).blk t).view.emb j) 0).val = 2000 * t.val + (j 0).val := by
    show win0_3.index t 0 * 2000 + 1 * (j 0).val = _; rw [e0]; omega
  have hE1 : ((((cfg0.win 3).blk t).view.emb j) 1).val = (j 1).val := by
    show win0_3.index t 1 * 128 + 1 * (j 1).val = _; rw [e1]; omega
  unfold Spec.enc
  have hx : ∀ k : Fin 512, (iblk0 V c 0 t : Vec Ideal S2000x512 .f32) (ix2 (j 0) k)
      = (V c main_arg0 : S50000x512.Idx → Elt Ideal .f32) (ix2 ((((cfg0.win 3).blk t).view.emb j) 0) k) :=
    fun k => block_x V c t _ _ hE0 rfl
  have hw : ∀ k : Fin 512, (iblk0 V c 1 t : Vec Ideal S512x128 .f32) (ix2 k (j 1))
      = (V c main_arg1 : S512x128.Idx → Elt Ideal .f32) (ix2 k ((((cfg0.win 3).blk t).view.emb j) 1)) :=
    fun k => (block_w V c t _).trans (congrArg _ (funext fun a => Fin.ext (by
      match a with
      | ⟨0, _⟩ => rfl
      | ⟨1, _⟩ => exact hE1.symm)))
  have hb : (iblk0 V c 2 t : Vec Ideal S1x128 .f32) (ix2 0 (j 1))
      = (V c main_v0 : S1x128.Idx → Elt Ideal .f32) (ix2 0 ((((cfg0.win 3).blk t).view.emb j) 1)) :=
    (block_b V c t _).trans (congrArg _ (funext fun a => Fin.ext (by
      match a with
      | ⟨0, _⟩ => rfl
      | ⟨1, _⟩ => exact hE1.symm)))
  rw [hb, Finset.sum_congr rfl fun k _ => by rw [hx k, hw k]]

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Row r of the output lies in the block of point r / 2000: the 25 row blocks tile the array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ 0 * 2000 ≤ (i 0).val ∧ (i 0).val < win0_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ 1 * 128 ≤ (i 1).val ∧ (i 1).val < win0_3.index ⟨(i 0).val / 2000, ht⟩ 1 * 128 + 128
    rw [e1]; omega

/-- THE ENCODER REGION'S VALUE: its output array after the run is the encoder layer of the arrays it was entered with. -/
theorem value (c : Dev nD) :
    (dat0 V c).arrAt 3 cfg0.N = Spec.enc (V c main_arg0) (V c main_arg1) (V c main_v0) :=
  (dat0 V c).arrAt_eq_of_cover 3 _ (fun t _ => flushed_eq V c t) cover

end Cert.KernelIdeal.EncValue

end
-- ==== Proof.Region1.lean ====
/-
  The decoder region's value: after the pipeline has run over its 25 row blocks, the output array holds the
  decoder layer of the arrays the region was entered with.

  Grid point t stages rows 2000·t … 2000·t + 1999 of the hidden array (all 128 columns), the whole weight matrix and
  the one-row bias; the body multiplies the row block by the weights on the matrix unit into a zero accumulator, adds
  the bias row to every row and applies the logistic function; the result is written back to rows 2000·t … of the
  output. At the ideal instance the change of format before the product is the identity and the product is the plain
  sum over the contracted axis, so entry (2000·t + p, q) of the output is `Spec.dec` of the arrays at that entry. The 25
  row blocks tile the 50000 rows, so the whole array is `Spec.dec`.
-/
import proofs.«174198_j36464272343198_1_alg».proof.Proof.Gen.KernelIdeal.Frame
import proofs.«174198_j36464272343198_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.DecValue

open Idealize.ShloMosaic Idealize.ShloMosaic.TcCoe Idealize.SL.Sem Idealize.ShloMosaic.ValueIdx
open Idealize.ShloMosaic.Pipeline (Dat)
open Cert.KernelIdeal Cert.KernelIdeal.Gen

/-! ## The matrix product of a staged block at an entry -/

theorem lhs_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The matrix unit's product into a zero accumulator, at entry `j`: row `j 0` of the left block against column
    `j 1` of the right one. -/
theorem product_apply (a : FVec Ideal S2000x128 .bf16) (b : FVec Ideal S128x512 .bf16) (j : S2000x512.Idx) :
    FloatOps.matmul dot_S2000x128_S128x512_S2000x512_1_0_0_1_n_n none a b (constant S2000x512 .f32 0x00000000#32) j
      = ∑ k : Fin 128, a (ix2 (j 0) k) * b (ix2 k (j 1)) := by
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx j ((contrEquiv1 dot_S2000x128_S128x512_S2000x512_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S2000x128_S128x512_S2000x512_1_0_0_1_n_n.rhsIdx j ((contrEquiv1 dot_S2000x128_S128x512_S2000x512_1_0_0_1_n_n 128 rfl rfl).symm k) = ix2 k (j 1) := funext fun a => Fin.ext (by
    match a with
    | ⟨0, _⟩ => exact (rhs_0 _ _).trans hk
    | ⟨1, _⟩ => exact rhs_1 _ _)
  rw [el, er]
  rfl

/-- The bias row spread over the block's rows, at entry `j`: the bias of column `j 1`. -/
theorem bias_apply (x2 : FVec Ideal S1x512 .f32) (j : S2000x512.Idx) :
    broadcastTo S2000x512 (shapeCast S1x512 x2 shapeCasts_S1x512_S1x512) broadcasts_S1x512_S2000x512 j = x2 (ix2 0 (j 1)) := by
  rw [shapeCast_self]
  exact broadcastTo_apply x2 broadcasts_S1x512_S2000x512 j (ix2 0 (j 1)) (fun a => match a with
    | ⟨0, _⟩ => by show (0 : Nat) = if (1 : Nat) = 1 then 0 else _; rw [if_pos rfl]
    | ⟨1, _⟩ => by show (j 1).val = if (512 : Nat) = 1 then 0 else (j 1).val; rw [if_neg (by decide)])

/-- The body's stored value at entry `j` of the block, from the three staged blocks. -/
theorem payload_apply (x0 : Vec Ideal S2000x128 .f32) (x1 : Vec Ideal S128x512 .f32) (x2 : Vec Ideal S1x512 .f32) (j : S2000x512.Idx) :
    k1_pay1 x0 x1 x2 j
      = FloatOps.logistic (F := Ideal) (φ := .f32)
          (FloatOps.addf (F := Ideal) (φ := .f32) (∑ k : Fin 128, x0 (ix2 (j 0) k) * x1 (ix2 k (j 1))) (x2 (ix2 0 (j 1)))) := by
  unfold k1_pay1
  rw [shapeCast_self]
  show FloatOps.logistic (F := Ideal) (φ := .f32) (FloatOps.addf (F := Ideal) (φ := .f32) (FloatOps.matmul (F := Ideal) dot_S2000x128_S128x512_S2000x512_1_0_0_1_n_n none (truncf .bf16 (x0 : FVec Ideal S2000x128 .f32) bitsLt_bf16_f32) (truncf .bf16 (x1 : FVec Ideal S128x512 .f32) bitsLt_bf16_f32) (constant S2000x512 .f32 0x00000000#32) j) (broadcastTo S2000x512 (shapeCast S1x512 (x2 : FVec Ideal S1x512 .f32) shapeCasts_S1x512_S1x512) broadcasts_S1x512_S2000x512 j)) = _
  rw [product_apply, bias_apply]
  rfl

/-! ## The staged blocks as rows of the arrays, the write-back, the cover -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input rows and the output rows move with the point, the weights and the
    bias stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point `t` is rows 2000·t … of the input array. -/
theorem block_x (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v48 : S50000x128.Idx → Elt Ideal .f32) i := by
  obtain ⟨e0, e1, -⟩ := idx_facts t
  unfold iblk1
  rw [View.read_apply]
  show V c main_v48 _ = V c main_v48 _
  congr 1
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- The weight block at every point is the whole weight array. -/
theorem block_w (c : Dev nD) (t : Fin cfg1.N) (y : S128x512.Idx) :
    (iblk1 V c 1 t : Vec Ideal S128x512 .f32) y = (V c main_arg3 : S128x512.Idx → Elt Ideal .f32) y := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t 0 * 128 + 1 * (y 0).val = (y 0).val; rw [e0]; omega
  | ⟨1, _⟩ => show win1_1.index t 1 * 512 + 1 * (y 1).val = (y 1).val; rw [e1]; omega

/-- The bias block at every point is the whole one-row bias array. -/
theorem block_b (c : Dev nD) (t : Fin cfg1.N) (y : S1x512.Idx) :
    (iblk1 V c 2 t : Vec Ideal S1x512 .f32) y = (V c main_v49 : S1x512.Idx → Elt Ideal .f32) y := by
  obtain ⟨-, -, -, -, e0, e1, -⟩ := idx_facts t
  unfold iblk1
  rw [View.read_apply]
  show V c main_v49 _ = V c main_v49 _
  congr 1
  funext a
  apply Fin.ext
  match a with
  | ⟨0, _⟩ => show win1_2.index t 0 * 1 + 1 * (y 0).val = (y 0).val; rw [e0]; omega
  | ⟨1, _⟩ => show win1_2.index t 1 * 512 + 1 * (y 1).val = (y 1).val; rw [e1]; omega

/-- What point `t` writes back is block `t` of the encoder layer of the arrays the region was entered with. -/
theorem flushed_eq (c : Dev nD) (t : Fin cfg1.N) :
    (dat1 V c).flushed 3 t
      = ((cfg1.win 3).blk t).view.read (Elt Ideal) (Spec.dec (V c main_v48) (V c main_arg3) (V c main_v49)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x512) hz, View.ld_unit_zero (S := S1x512) hz]
  funext j
  obtain ⟨-, -, -, -, -, -, e0, e1⟩ := idx_facts t
  rw [View.read_apply]
  show k1_pay1 (iblk1 V c 0 t) (iblk1 V c 1 t) (iblk1 V c 2 t) j = Spec.dec _ _ _ (((cfg1.win 3).blk t).view.emb j)
  refine (payload_apply _ _ _ j).trans ?_
  have hE0 : ((((cfg1.win 3).blk t).view.emb j) 0).val = 2000 * t.val + (j 0).val := by
    show win1_3.index t 0 * 2000 + 1 * (j 0).val = _; rw [e0]; omega
  have hE1 : ((((cfg1.win 3).blk t).view.emb j) 1).val = (j 1).val := by
    show win1_3.index t 1 * 512 + 1 * (j 1).val = _; rw [e1]; omega
  unfold Spec.dec
  have hx : ∀ k : Fin 128, (iblk1 V c 0 t : Vec Ideal S2000x128 .f32) (ix2 (j 0) k)
      = (V c main_v48 : S50000x128.Idx → Elt Ideal .f32) (ix2 ((((cfg1.win 3).blk t).view.emb j) 0) k) :=
    fun k => block_x V c t _ _ hE0 rfl
  have hw : ∀ k : Fin 128, (iblk1 V c 1 t : Vec Ideal S128x512 .f32) (ix2 k (j 1))
      = (V c main_arg3 : S128x512.Idx → Elt Ideal .f32) (ix2 k ((((cfg1.win 3).blk t).view.emb j) 1)) :=
    fun k => (block_w V c t _).trans (congrArg _ (funext fun a => Fin.ext (by
      match a with
      | ⟨0, _⟩ => rfl
      | ⟨1, _⟩ => exact hE1.symm)))
  have hb : (iblk1 V c 2 t : Vec Ideal S1x512 .f32) (ix2 0 (j 1))
      = (V c main_v49 : S1x512.Idx → Elt Ideal .f32) (ix2 0 ((((cfg1.win 3).blk t).view.emb j) 1)) :=
    (block_b V c t _).trans (congrArg _ (funext fun a => Fin.ext (by
      match a with
      | ⟨0, _⟩ => rfl
      | ⟨1, _⟩ => exact hE1.symm)))
  rw [hb, Finset.sum_congr rfl fun k _ => by rw [hx k, hw k]]

/-- An index of the output array is in point `t`'s block iff each coordinate is in the block's range on its axis. -/
theorem mem_blk (t : Fin cfg1.N) (i : S50000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v50).slice (win1_3.rect t)).set ↔ _
  rw [View.set_slice_whole, Rect.mem_set_unit]
  exact Iff.rfl

/-- Row r of the output lies in the block of point r / 2000: the 25 row blocks tile the array. -/
theorem cover (i : S50000x512.Idx) : ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 25 := N_1
  have ht : (i 0).val / 2000 < cfg1.N := by rw [hN]; omega
  obtain ⟨-, -, -, -, -, -, e0, e1⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ 0 * 2000 ≤ (i 0).val ∧ (i 0).val < win1_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ 1 * 512 ≤ (i 1).val ∧ (i 1).val < win1_3.index ⟨(i 0).val / 2000, ht⟩ 1 * 512 + 512
    rw [e1]; omega

/-- THE ENCODER REGION'S VALUE: its output array after the run is the encoder layer of the arrays it was entered with. -/
theorem value (c : Dev nD) :
    (dat1 V c).arrAt 3 cfg1.N = Spec.dec (V c main_v48) (V c main_arg3) (V c main_v49) :=
  (dat1 V c).arrAt_eq_of_cover 3 _ (fun t _ => flushed_eq V c t) cover

end Cert.KernelIdeal.DecValue

end
-- ==== Proof.HostSide.lean ====
/-
  The host stretches of the kernel program, read: what each region finds in the arrays it stages.

  Before the encoder region the host reshapes the encoder bias to one row; the input and the encoder weights are as
  launched. Between the regions the host applies the graph convolution (`Spec.gcn`) to the encoder region's output
  array, the edge list and the convolution bias, and reshapes the decoder bias to one row; the decoder weights are as
  launched. No host operation and no region writes an argument array.
-/
import proofs.«174198_j36464272343198_1_alg».proof.Proof.Gen.KernelIdeal.Frame
import proofs.«174198_j36464272343198_1_alg».proof.Proof.Spec
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the encoder region's entry -/

theorem enc_x (c : Dev nD) : V1 m ρ c main_arg0 = m ((c : Thread nD τ).loc main_arg0) := by
  show StableHlo.after hostOps0 (W0 m ρ c) (Proc.devRef .tc main_arg0) = _
  after_results

theorem enc_w (c : Dev nD) : V1 m ρ c main_arg1 = m ((c : Thread nD τ).loc main_arg1) := by
  show StableHlo.after hostOps0 (W0 m ρ c) (Proc.devRef .tc main_arg1) = _
  after_results

theorem enc_b (c : Dev nD) :
    V1 m ρ c main_v0 = shapeCast S1x128 (m ((c : Thread nD τ).loc main_arg2)) shapeCasts_S128_S1x128 := by
  show StableHlo.after hostOps0 (W0 m ρ c) (Proc.devRef .tc main_v0) = _
  after_results; rfl

/-! ## At the encoder region's exit: the arrays no region and no host operation has written -/

theorem mid_arg (b : Ref sig .tc) (hb : ∀ w, Pipeline.arrRef spec0 w ≠ b) (hb0 : b ≠ main_v0) (c : Dev nD) :
    W2 m ρ c (Proc.devRef .tc b) = m ((c : Thread nD τ).loc b) := by
  refine (W2_of_ne m ρ c b hb).trans ?_
  show StableHlo.after hostOps0 (W0 m ρ c) (Proc.devRef .tc b) = _
  simp only [after_cons, after_nil]
  rw [reshape_result_ne]
  exact hb0

/-! ## At the decoder region's entry -/

theorem dec_w (c : Dev nD) : V5 m ρ c main_arg3 = m ((c : Thread nD τ).loc main_arg3) :=
  ((W6_arr m ρ c 1).trans (((dat1 (V5 m ρ) c).arrAt_in 1 rfl _).trans (A_eq1 (V5 m ρ) c 1))).symm.trans (W6_main_arg3 m ρ c)

theorem dec_b (c : Dev nD) :
    V5 m ρ c main_v49 = shapeCast S1x512 (m ((c : Thread nD τ).loc main_arg4)) shapeCasts_S512_S1x512 := by
  show StableHlo.after hostOps1_2 (StableHlo.after hostOps1_1 (StableHlo.after hostOps1 (W2 m ρ c))) (Proc.devRef .tc main_v49) = _
  after_results_simp
  rw [mid_arg m ρ main_arg4 (by decide) (by decide) c]
  rfl

set_option maxHeartbeats 4000000 in
/-- The hidden array the decoder region stages is the graph convolution of the encoder region's output array, of the
    edge list and of the convolution bias as they stand at the encoder region's exit. -/
theorem dec_h_mid (c : Dev nD) :
    V5 m ρ c main_v48 = Spec.gcn (F := F) (W2 m ρ c (Proc.devRef .tc main_v1)) (W2 m ρ c (Proc.devRef .tc main_arg6)) (W2 m ρ c (Proc.devRef .tc main_arg5)) := by
  show StableHlo.after hostOps1_2 (StableHlo.after hostOps1_1 (StableHlo.after hostOps1 (W2 m ρ c))) (Proc.devRef .tc main_v48) = _
  after_results_simp
  unfold Spec.gcn
  rfl

/-- The same with the edge list and the convolution bias as launched. -/
theorem dec_h (c : Dev nD) :
    V5 m ρ c main_v48 = Spec.gcn (F := F) (W2 m ρ c (Proc.devRef .tc main_v1)) (m ((c : Thread nD τ).loc main_arg6)) (m ((c : Thread nD τ).loc main_arg5)) := by
  rw [dec_h_mid, mid_arg m ρ main_arg6 (by decide) (by decide) c, mid_arg m ρ main_arg5 (by decide) (by decide) c]

end Cert.KernelIdeal.HostValue

end
-- ==== Proof.KValue.lean ====
/-
  The kernel program's result array: the decoder layer of the graph convolution of the encoder layer of the
  arguments.

  The run's fold ends, at the result buffer, at what the decoder region's write-backs leave (`DecValue.value`) of the
  arrays the region was entered with; the host stretch before it hands it the graph convolution of the encoder
  region's output array (`HostValue.dec_h`), which is what the encoder region's write-backs leave
  (`EncValue.value`) of the arguments and the reshaped bias.
-/
import proofs.«174198_j36464272343198_1_alg».proof.Proof.KRun
import proofs.«174198_j36464272343198_1_alg».proof.Proof.Region0
import proofs.«174198_j36464272343198_1_alg».proof.Proof.Region1
import proofs.«174198_j36464272343198_1_alg».proof.Proof.HostSide

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The three layers applied to the launch contents of the arguments, the two biases reshaped to one row. -/
def result (c : Dev nD) : Buf (Elt Ideal) ((c.tc : Thread nD τ).loc main_v50) :=
  Spec.dec
    (Spec.gcn (F := Ideal)
      (Spec.enc (m ((c : Thread nD τ).loc main_arg0)) (m ((c : Thread nD τ).loc main_arg1))
        (shapeCast S1x128 (m ((c : Thread nD τ).loc main_arg2)) shapeCasts_S128_S1x128))
      (m ((c : Thread nD τ).loc main_arg6)) (m ((c : Thread nD τ).loc main_arg5)))
    (m ((c : Thread nD τ).loc main_arg3))
    (shapeCast S1x512 (m ((c : Thread nD τ).loc main_arg4)) shapeCasts_S512_S1x512)

/-- The encoder region leaves the encoder layer of the arguments in its output array. -/
theorem encoded_eq (c : Dev nD) :
    W2 m ρ c (Proc.devRef .tc main_v1)
      = Spec.enc (m ((c : Thread nD τ).loc main_arg0)) (m ((c : Thread nD τ).loc main_arg1))
          (shapeCast S1x128 (m ((c : Thread nD τ).loc main_arg2)) shapeCasts_S128_S1x128) := by
  refine (W2_arr m ρ c 3).trans ?_
  rw [EncValue.value (V1 m ρ) c, HostValue.enc_x, HostValue.enc_w, HostValue.enc_b]

/-- The run's fold ends, at the result buffer, at the three layers of the arguments. -/
theorem result_eq (c : Dev nD) : W6 m ρ c (Proc.devRef .tc main_v50) = result m c := by
  refine (W6_arr m ρ c 3).trans ?_
  rw [DecValue.value (V5 m ρ) c, HostValue.dec_h, HostValue.dec_w, HostValue.dec_b, encoded_eq]
  rfl

/-- THE KERNEL PROGRAM'S RUN: every weakly fair execution terminates with the result array at the three layers of the
    arguments and the arguments unchanged. -/
theorem run : θ_run defs (onTc (τ := τ) (main (F := Ideal))) ⟨m, fun _ => 0, ρ⟩ (fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.RunP.run_result m ρ)

end Cert.KernelIdeal.KValue

end
-- ==== Proof.RefSide.lean ====
/-
  The reference program's result, read as the same three layers.

  The reference's run ends at one composed term of the argument arrays. Read one operation at a time it is:
  the encoder layer (`Spec.enc`: a `dot_general` is the plain sum over the contracted axis at the ideal instance,
  the bias is spread over the rows, the maximum with zero is taken entry by entry), then the graph convolution
  (`Spec.gcn`: the very chain of host operations the kernel program applies between its two regions), then the decoder
  layer (`Spec.dec`: jax spells the logistic function as 1 / (1 + e^(-y)), which at the ideal instance IS the
  logistic function, the literal `0x3F800000` being the real number one).
-/
import proofs.«174198_j36464272343198_1_alg».proof.Proof.RefRead
import proofs.«174198_j36464272343198_1_alg».proof.Proof.Spec
import Idealize.ShloMosaic.Lib.IdealHost
import Idealize.ShloMosaic.Lib.Pipeline.Value

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.ReadP

/-- The reference's encoder stage is the encoder layer, its bias spread to one row. -/
theorem enc_eq (x0 : (⟨S50000x512, .f32⟩ : BufTy).Contents (Elt Ideal)) (x1 : (⟨S512x128, .f32⟩ : BufTy).Contents (Elt Ideal)) (x2 : (⟨S128, .f32⟩ : BufTy).Contents (Elt Ideal)) :
    val_main_v4 (F := Ideal) x0 x1 x2 = Cert.Spec.enc x0 x1 (val_main_v1 (F := Ideal) x2) := by
  funext i
  have el : ∀ k : Fin 512, lidx_main_v0 i k = ix2 (i 0) k := fun k => funext fun a => Fin.ext (by
    match a with
    | ⟨0, _⟩ => rfl
    | ⟨1, _⟩ => rfl)
  have er : ∀ k : Fin 512, ridx_main_v0 i k = ix2 k (i 1) := fun k => funext fun a => Fin.ext (by
    match a with
    | ⟨0, _⟩ => rfl
    | ⟨1, _⟩ => rfl)
  have eb : idx_main_v2 i = ix2 0 (i 1) := funext fun a => Fin.ext (by
    match a with
    | ⟨0, _⟩ => rfl
    | ⟨1, _⟩ => rfl)
  rw [val_main_v4_apply, val_main_v3_apply, val_main_v0_apply, val_main_v2_apply, val_main_call0_v0_apply,
    val_main_call0_cst_apply, eb]
  simp only [el, er]
  rfl

/-- jax's spelling of the logistic function on the host, 1 / (1 + e^(-y)), is the logistic function on the extended reals. -/
theorem logistic_spelt (y : Ideal .f32) :
    FloatOps.hostDivf (1 : Ideal .f32) (FloatOps.addf 1 (FloatOps.hostUnary .exp (FloatOps.hostNegf y))) = FloatOps.logistic y := rfl

/-- The reference's last stage is the decoder layer of its graph-convolution stage, its bias spread to one row. -/
theorem dec_eq (x0 : (⟨S50000x512, .f32⟩ : BufTy).Contents (Elt Ideal)) (x1 : (⟨S512x128, .f32⟩ : BufTy).Contents (Elt Ideal)) (x2 : (⟨S128, .f32⟩ : BufTy).Contents (Elt Ideal)) (x3 : (⟨S128x512, .f32⟩ : BufTy).Contents (Elt Ideal))
    (x4 : (⟨S512, .f32⟩ : BufTy).Contents (Elt Ideal)) (x5 : (⟨S128, .f32⟩ : BufTy).Contents (Elt Ideal)) (x6 : (⟨S2x640000, .i32⟩ : BufTy).Contents (Elt Ideal)) :
    val_main_v61 (F := Ideal) x0 x1 x2 x3 x4 x5 x6
      = Cert.Spec.dec (val_main_v51 (F := Ideal) x0 x1 x2 x5 x6) x3 (val_main_v53 (F := Ideal) x4) := by
  funext i
  have el : ∀ k : Fin 128, lidx_main_v52 i k = ix2 (i 0) k := fun k => funext fun a => Fin.ext (by
    match a with
    | ⟨0, _⟩ => rfl
    | ⟨1, _⟩ => rfl)
  have er : ∀ k : Fin 128, ridx_main_v52 i k = ix2 k (i 1) := fun k => funext fun a => Fin.ext (by
    match a with
    | ⟨0, _⟩ => rfl
    | ⟨1, _⟩ => rfl)
  have eb : idx_main_v54 i = ix2 0 (i 1) := funext fun a => Fin.ext (by
    match a with
    | ⟨0, _⟩ => rfl
    | ⟨1, _⟩ => rfl)
  rw [val_main_v61_apply, val_main_v60_apply, val_main_cst_10_apply, val_main_v59_apply, val_main_v58_apply,
    val_main_cst_9_apply, val_main_v57_apply, val_main_v56_apply, val_main_v55_apply, val_main_v52_apply,
    val_main_v54_apply, eb]
  simp only [el, er, Ideal.ofBits_def, Ideal.ofBits_one_f32]
  exact logistic_spelt _

variable {F : FTy → Type} [FloatOps F]

set_option maxHeartbeats 4000000 in
/-- The reference's graph-convolution stage is the chain the kernel program applies, of the encoder stage. -/
theorem gcn_eq (x0 : (⟨S50000x512, .f32⟩ : BufTy).Contents (Elt F)) (x1 : (⟨S512x128, .f32⟩ : BufTy).Contents (Elt F))
    (x2 x5 : (⟨S128, .f32⟩ : BufTy).Contents (Elt F)) (x6 : (⟨S2x640000, .i32⟩ : BufTy).Contents (Elt F)) :
    val_main_v51 (F := F) x0 x1 x2 x5 x6 = Cert.Spec.gcn (F := F) (val_main_v4 (F := F) x0 x1 x2) x6 x5 := by
  unfold Cert.Spec.gcn
  rfl

/-- A bias spread to one row by the reference's broadcast is the bias reshaped to one row (128 columns). -/
theorem row128 (b : (⟨S128, .f32⟩ : BufTy).Contents (Elt F)) (h : S128.ShapeCasts S1x128) :
    val_main_v1 (F := F) b = shapeCast S1x128 b h := by
  funext j
  refine (val_main_v1_apply b j).trans ((shapeCast_addUnit_apply ![128] b h j).trans (congrArg b ?_)).symm
  funext a
  match a with
  | ⟨0, _⟩ => rfl

/-- The same for the decoder's bias (512 columns). -/
theorem row512 (b : (⟨S512, .f32⟩ : BufTy).Contents (Elt F)) (h : S512.ShapeCasts S1x512) :
    val_main_v53 (F := F) b = shapeCast S1x512 b h := by
  funext j
  refine (val_main_v53_apply b j).trans ((shapeCast_addUnit_apply ![512] b h j).trans (congrArg b ?_)).symm
  funext a
  match a with
  | ⟨0, _⟩ => rfl

end Cert.ReferenceIdeal.RefValue

end
-- ==== Proof.lean ====
/-
  The certificate: a graph autoencoder — a dense encoder layer, a graph convolution, a dense decoder layer — as a
  kernel program (the two dense layers as pipelined kernels over blocks of 2000 rows, the convolution on the host
  between them) against the jnp reference (all three on the host).

  Over the extended reals both programs compute, at every entry,
      decoded = logistic (gcn (max (x · W_enc + b_enc, 0)) · W_dec + b_dec)
  (`Spec.enc`, `Spec.gcn`, `Spec.dec`). On the kernel side the change of float format before each matrix product is
  the identity and a product into a zero accumulator is the plain sum over the contracted axis; each region's 25 row
  blocks tile its output array, so each region's output is its layer of the whole arrays (`EncValue.value`,
  `DecValue.value`), and the host stretch between the regions is the convolution (`HostValue.dec_h`). On the reference
  side a `dot_general` is the same sum, a broadcast bias is the reshaped bias read at its column, and jax's spelling
  1 / (1 + e^(-y)) of the logistic function is the logistic function. The convolution's gathers and scatter-adds, whose
  indices are the edge list's data, are the same chain in both programs and are never opened; no law of the extended
  reals beyond the sums' own is used, so the precondition is not needed for the value.

  The three frames: the kernel programs' are generated; the reference's is its run with the result dropped.
  `preserves` is `True`: the idealization rewrote nothing.
-/
import proofs.«174198_j36464272343198_1_alg».proof.Defs
import proofs.«174198_j36464272343198_1_alg».proof.Proof.Gen.Kernel
import proofs.«174198_j36464272343198_1_alg».proof.Proof.Gen.Kernel.Skeleton
import proofs.«174198_j36464272343198_1_alg».proof.Proof.Gen.Kernel.Launch
import proofs.«174198_j36464272343198_1_alg».proof.Proof.Gen.Kernel.Points
import proofs.«174198_j36464272343198_1_alg».proof.Proof.Gen.Kernel.Frame
import proofs.«174198_j36464272343198_1_alg».proof.Proof.Gen.KernelIdeal
import proofs.«174198_j36464272343198_1_alg».proof.Proof.Gen.KernelIdeal.Skeleton
import proofs.«174198_j36464272343198_1_alg».proof.Proof.Gen.KernelIdeal.Launch
import proofs.«174198_j36464272343198_1_alg».proof.Proof.Gen.KernelIdeal.Points
import proofs.«174198_j36464272343198_1_alg».proof.Proof.Gen.KernelIdeal.Frame
import proofs.«174198_j36464272343198_1_alg».proof.Proof.Gen.ReferenceIdeal
import proofs.«174198_j36464272343198_1_alg».proof.Proof.Gen.Pre_finite_inputs
import proofs.«174198_j36464272343198_1_alg».proof.Proof.KValue
import proofs.«174198_j36464272343198_1_alg».proof.Proof.RefSide
import Idealize.ShloMosaic.Adequacy
import Idealize.ShloMosaic.Init

noncomputable section

namespace Cert.Proof

open Idealize.ShloMosaic Idealize.SL.Sem

/-- The two idealized programs end with equal results: the kernel program's result array is the three layers of its
    arguments (`KValue.run`), the reference's composed term is the same three layers of its own (`dec_eq`, `gcn_eq`,
    `enc_eq`), and the arguments agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6⟩ := hagree c
  rw [Cert.ReferenceIdeal.ReadP.val_main_v61_eq, Cert.ReferenceIdeal.RefValue.dec_eq, Cert.ReferenceIdeal.RefValue.gcn_eq,
    Cert.ReferenceIdeal.RefValue.enc_eq, a0, a1, a2, a3, a4, a5, a6,
    Cert.ReferenceIdeal.RefValue.row128 _ Cert.KernelIdeal.Facts₀.shapeCasts_S128_S1x128,
    Cert.ReferenceIdeal.RefValue.row512 _ Cert.KernelIdeal.Facts₀.shapeCasts_S512_S1x512]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunP.run (F := Ideal) m ρ),
  trivial,
  algebraic⟩

end Cert.Proof

end
